-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S96x128 1) : IVec S_ 1 :=
  let main_c_5 : IVec S_ 1 := constantI S_ 1 1#1
  let main_v17 : IVec S_ 1 := (fun x v => Host.reduce IntOp.andi x v reducesTo_S96x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S96x128 .f32) (main_arg3 : FVec F S128 .f32) (main_arg4 : FVec F S96x128 .f32) (main_arg5 : FVec F S128x128 .f32) (main_arg6 : FVec F S128 .f32) (main_arg7 : FVec F S128x128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x128 .f32 := Host.absf main_arg2
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S96x128 .f32 := Host.absf main_arg4
  let main_cst_4 : FVec F S_ .f32 := constant S_ .f32 0x7F800000#32
  let main_v15 : FVec F S96x128 .f32 := broadcastInDim S96x128 ![] bcast_S_S96x128 main_cst_4
  let main_v16 : IVec S96x128 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x128 : Shape := ⟨2, ![1, 128]⟩
abbrev S50000x128 : Shape := ⟨2, ![50000, 128]⟩
abbrev S5000x96 : Shape := ⟨2, ![5000, 96]⟩
abbrev S5000x128 : Shape := ⟨2, ![5000, 128]⟩
abbrev S800000x128 : Shape := ⟨2, ![800000, 128]⟩

abbrev nBuf : Space → Nat
  | .hbm => 66
  | .vmem => 18
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S128, .f32⟩
  | .hbm, ⟨4, _⟩ => ⟨S96x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x128, .f32⟩
  | .local _ .vmem, ⟨5, _⟩ => ⟨S1x128, .f32⟩
  | .local _ .vmem, ⟨6, _⟩ => ⟨S96x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  shapeCasts_S128_S1x128 : S128.ShapeCasts S1x128
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S5000x96_S96x128_S5000x128_1_0_0_1_n_n_wf : DotDims.WF S5000x96 S96x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x128.size a ≤ S96x128.size a
  hwx0_2 : ∀ i : grid0.Coords, EltTy.bits .f32 = 32 ∨ (Rect.block (s := S96x128) S96x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x128.size a ≤ S96x128.size a
  hwx0_4 : ∀ i : grid0.Coords, EltTy.bits .f32 = 32 ∨ (Rect.block (s := S96x128) S96x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S96x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S128, .f32⟩
  | .hbm, ⟨4, _⟩ => ⟨S96x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x128_S50000x128_1_0_0_1_n_n_wf : DotDims.WF S50000x96 S96x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.LibLinearLayer.lean ====
/-
  One graph-convolution layer over the extended reals. For node features X and their neighbourhood means A (both
  R × K), weights Wl, Wr (K × N) and a bias b (N), the layer's linear part at (r, c) is

      Σ_k A(r,k)·Wl(k,c) + Σ_k X(r,k)·Wr(k,c) + b(c).

  The kernel's tile computes it in this order (both products, then the bias); the host form adds the bias to the
  first product before the second. Addition of extended reals is commutative and associative, so the two agree
  at every entry, whatever the entries are — no finiteness is used.
-/
import proofs.«132836_j41575283425665_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx

variable {R K N : ℕ}

/-- The linear part of a layer at row `p`, column `q`: both products summed, then the bias. -/
def linAt (A X : FVec Ideal ⟨2, ![R, K]⟩ .f32) (Wl Wr : FVec Ideal ⟨2, ![K, N]⟩ .f32) (b : Fin N → EReal)
    (p : Fin R) (q : Fin N) : EReal :=
  (∑ k : Fin K, A (ix2 p k) * Wl (ix2 k q) + ∑ k : Fin K, X (ix2 p k) * Wr (ix2 k q)) + b q

/-- The linear part of a layer as one array (the bias given as a function of the column). -/
def lin (A X : FVec Ideal ⟨2, ![R, K]⟩ .f32) (Wl Wr : FVec Ideal ⟨2, ![K, N]⟩ .f32) (b : Fin N → EReal) :
    FVec Ideal ⟨2, ![R, N]⟩ .f32 :=
  fun i => linAt A X Wl Wr b (i 0) (i 1)

theorem lin_apply (A X : FVec Ideal ⟨2, ![R, K]⟩ .f32) (Wl Wr : FVec Ideal ⟨2, ![K, N]⟩ .f32) (b : Fin N → EReal)
    (p : Fin R) (q : Fin N) : lin A X Wl Wr b (ix2 p q) = linAt A X Wl Wr b p q := rfl

/-- The rectifier: the maximum with the zero word's value, entry by entry. -/
def relu {S : Shape} (Y : FVec Ideal S .f32) : FVec Ideal S .f32 :=
  fun i => max (Y i) (Ideal.ofBits .f32 0x00000000#32)

theorem relu_apply {S : Shape} (Y : FVec Ideal S .f32) (i : S.Idx) :
    relu Y i = max (Y i) (Ideal.ofBits .f32 0x00000000#32) := rfl

/-- The kernel's tile at an entry: the two products into zero accumulators (their operands narrowed to bf16, which
    changes nothing over the extended reals), added, then the bias row spread over the rows. The bias is the tile's
    one-row array `brow`. -/
theorem tile_apply (h : FTy.bf16.bits < FTy.f32.bits)
    (x0 x1 : FVec Ideal ⟨2, ![R, K]⟩ .f32) (wl wr : FVec Ideal ⟨2, ![K, N]⟩ .f32) (brow : FVec Ideal ⟨2, ![1, N]⟩ .f32)
    (hb : (⟨2, ![1, N]⟩ : Shape).Broadcasts ⟨2, ![R, N]⟩) (p : Fin R) (q : Fin N) :
    addf (addf (matmul (F := Ideal) (DotDims.plain R K N) none (truncf .bf16 x0 h) (truncf .bf16 wl h)
                  (constant (F := Ideal) ⟨2, ![R, N]⟩ .f32 0x00000000#32))
               (matmul (F := Ideal) (DotDims.plain R K N) none (truncf .bf16 x1 h) (truncf .bf16 wr h)
                  (constant (F := Ideal) ⟨2, ![R, N]⟩ .f32 0x00000000#32)))
         (broadcastTo ⟨2, ![R, N]⟩ brow hb) (ix2 p q)
      = (∑ k : Fin K, x0 (ix2 p k) * wl (ix2 k q) + ∑ k : Fin K, x1 (ix2 p k) * wr (ix2 k q)) + brow (ix2 (0 : Fin 1) q) := by
  rw [addf_apply, addf_apply, Cert.PlainProduct.matmul_zero_apply, Cert.PlainProduct.matmul_zero_apply,
    broadcastTo_1b_ab_apply]
  rfl

/-- The first layer's tile as the body spells it: the neighbourhood block and the bias row pass through shape casts
    to their own shapes, the record of the products is a variable equal to the plain one, and the rectifier is applied
    last against a splat of the zero word. -/
theorem tile1_apply (d : DotDims ⟨2, ![R, K]⟩ ⟨2, ![K, N]⟩ ⟨2, ![R, N]⟩) (hd : d = DotDims.plain R K N)
    (h : FTy.bf16.bits < FTy.f32.bits)
    (hs0 : (⟨2, ![R, K]⟩ : Shape).ShapeCasts ⟨2, ![R, K]⟩) (hs1 : (⟨2, ![1, N]⟩ : Shape).ShapeCasts ⟨2, ![1, N]⟩)
    (hb : (⟨2, ![1, N]⟩ : Shape).Broadcasts ⟨2, ![R, N]⟩)
    (x0 x1 : FVec Ideal ⟨2, ![R, K]⟩ .f32) (wl wr : FVec Ideal ⟨2, ![K, N]⟩ .f32) (brow : FVec Ideal ⟨2, ![1, N]⟩ .f32)
    (p : Fin R) (q : Fin N) :
    maximumf (addf (addf (matmul (F := Ideal) d none (truncf .bf16 (shapeCast ⟨2, ![R, K]⟩ x0 hs0) h) (truncf .bf16 wl h)
                            (constant (F := Ideal) ⟨2, ![R, N]⟩ .f32 0x00000000#32))
                         (matmul (F := Ideal) d none (truncf .bf16 x1 h) (truncf .bf16 wr h)
                            (constant (F := Ideal) ⟨2, ![R, N]⟩ .f32 0x00000000#32)))
                   (broadcastTo ⟨2, ![R, N]⟩ (shapeCast ⟨2, ![1, N]⟩ brow hs1) hb))
             (broadcast ⟨2, ![R, N]⟩ (Scalar.ofBits (F := Ideal) .f32 0x00000000#32)) (ix2 p q)
      = max ((∑ k : Fin K, x0 (ix2 p k) * wl (ix2 k q) + ∑ k : Fin K, x1 (ix2 p k) * wr (ix2 k q)) + brow (ix2 (0 : Fin 1) q))
          (Ideal.ofBits .f32 0x00000000#32) := by
  subst hd
  rw [shapeCast_self, shapeCast_self, maximumf_apply, tile_apply]
  rfl

/-- The second layer's tile as the body spells it: both row blocks and the bias row pass through shape casts to their
    own shapes; no rectifier. -/
theorem tile2_apply (d : DotDims ⟨2, ![R, K]⟩ ⟨2, ![K, N]⟩ ⟨2, ![R, N]⟩) (hd : d = DotDims.plain R K N)
    (h : FTy.bf16.bits < FTy.f32.bits)
    (hs0 : (⟨2, ![R, K]⟩ : Shape).ShapeCasts ⟨2, ![R, K]⟩) (hs1 : (⟨2, ![1, N]⟩ : Shape).ShapeCasts ⟨2, ![1, N]⟩)
    (hb : (⟨2, ![1, N]⟩ : Shape).Broadcasts ⟨2, ![R, N]⟩)
    (x0 x1 : FVec Ideal ⟨2, ![R, K]⟩ .f32) (wl wr : FVec Ideal ⟨2, ![K, N]⟩ .f32) (brow : FVec Ideal ⟨2, ![1, N]⟩ .f32)
    (p : Fin R) (q : Fin N) :
    addf (addf (matmul (F := Ideal) d none (truncf .bf16 (shapeCast ⟨2, ![R, K]⟩ x0 hs0) h) (truncf .bf16 wl h)
                  (constant (F := Ideal) ⟨2, ![R, N]⟩ .f32 0x00000000#32))
               (matmul (F := Ideal) d none (truncf .bf16 (shapeCast ⟨2, ![R, K]⟩ x1 hs0) h) (truncf .bf16 wr h)
                  (constant (F := Ideal) ⟨2, ![R, N]⟩ .f32 0x00000000#32)))
         (broadcastTo ⟨2, ![R, N]⟩ (shapeCast ⟨2, ![1, N]⟩ brow hs1) hb) (ix2 p q)
      = (∑ k : Fin K, x0 (ix2 p k) * wl (ix2 k q) + ∑ k : Fin K, x1 (ix2 p k) * wr (ix2 k q)) + brow (ix2 (0 : Fin 1) q) := by
  subst hd
  rw [shapeCast_self, shapeCast_self, shapeCast_self, tile_apply]

/-- The host's form at an entry: the bias (already spread to the full shape, `bb`) is added to the first product,
    the second product last. -/
theorem host_apply (A X : FVec Ideal ⟨2, ![R, K]⟩ .f32) (Wl Wr : FVec Ideal ⟨2, ![K, N]⟩ .f32)
    (bb : FVec Ideal ⟨2, ![R, N]⟩ .f32) (p : Fin R) (q : Fin N) :
    addf (addf (Host.dotGeneral (F := Ideal) (DotDims.plain R K N) none A Wl) bb)
         (Host.dotGeneral (F := Ideal) (DotDims.plain R K N) none X Wr) (ix2 p q)
      = (∑ k : Fin K, A (ix2 p k) * Wl (ix2 k q) + bb (ix2 p q)) + ∑ k : Fin K, X (ix2 p k) * Wr (ix2 k q) := by
  rw [addf_apply, addf_apply, Cert.PlainProduct.dotGeneral_apply, Cert.PlainProduct.dotGeneral_apply]

/-- The host's form IS the layer's linear part: the bias commutes past the second product. (The record of the two
    products is a variable equal to the plain one, as a printed program names it.) -/
theorem host_eq_lin (d : DotDims ⟨2, ![R, K]⟩ ⟨2, ![K, N]⟩ ⟨2, ![R, N]⟩) (hd : d = DotDims.plain R K N)
    (A X : FVec Ideal ⟨2, ![R, K]⟩ .f32) (Wl Wr : FVec Ideal ⟨2, ![K, N]⟩ .f32)
    (b : Fin N → EReal) (bb : FVec Ideal ⟨2, ![R, N]⟩ .f32)
    (hbb : ∀ (p : Fin R) (q : Fin N), bb (ix2 p q) = b q) :
    addf (addf (Host.dotGeneral (F := Ideal) d none A Wl) bb)
         (Host.dotGeneral (F := Ideal) d none X Wr)
      = lin A X Wl Wr b := by
  subst hd
  funext i
  obtain ⟨p, q, rfl⟩ : ∃ (p : Fin R) (q : Fin N), i = ix2 p q := ⟨i 0, i 1, eq_ix2 i⟩
  rw [host_apply, lin_apply, hbb]
  exact add_right_comm _ _ _

end Cert.Sage

end
-- ==== Proof.KernelLayer1.lean ====
/-
  The first layer's region read as a value. The grid has ten points; point t stages rows 5000·t … 5000·t + 4999 of
  the neighbourhood means and of the node features, the two weight matrices and the bias row whole, and writes back
  rows 5000·t … 5000·t + 4999 of the hidden features. What it writes at (p, q) of its block is

      max (Σ_k A(5000·t + p, k)·Wl(k, q) + Σ_k X(5000·t + p, k)·Wr(k, q) + b(q), 0),

  which is the entry (5000·t + p, q) of ONE array computed from the whole operands; the ten blocks tile the output,
  so after the region the output array is that array.
-/
import proofs.«132836_j41575283425665_1_alg».proof.Proof.Gen.KernelIdeal.Frame
import proofs.«132836_j41575283425665_1_alg».proof.Proof.LibLinearLayer

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at an entry of the tile, from the five loaded blocks. -/
theorem pay_apply (v0 v3 : Vec Ideal S5000x96 .f32) (v5 v7 : Vec Ideal S96x128 .f32) (v9 : Vec Ideal S1x128 .f32)
    (p : Fin 5000) (q : Fin 128) :
    k0_pay1 (F := Ideal) v0 v3 v5 v7 v9 (ix2 p q)
      = max ((∑ k : Fin 96, v0 (ix2 p k) * v5 (ix2 k q) + ∑ k : Fin 96, v3 (ix2 p k) * v7 (ix2 k q)) + v9 (ix2 (0 : Fin 1) q))
          (Ideal.ofBits .f32 0x00000000#32) := by
  unfold k0_pay1
  exact Cert.Sage.tile1_apply _ rfl _ _ _ _ v0 v3 v5 v7 v9 p q

/-- The block indices at point t: the row-blocked windows (means, features, output) are at block row t, block
    column 0; the whole-array windows (weights, bias row) at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The hidden features as one array of the region-entry arrays: the rectified layer of the means `main_v22` and the
    features `main_arg0` under the weights `main_arg2`, `main_arg4` and the bias row `main_v23`. -/
abbrev aggA (c : Dev nD) : FVec Ideal S50000x96 .f32 := V c main_v22
abbrev featA (c : Dev nD) : FVec Ideal S50000x96 .f32 := V c main_arg0
abbrev wlA (c : Dev nD) : FVec Ideal S96x128 .f32 := V c main_arg2
abbrev wrA (c : Dev nD) : FVec Ideal S96x128 .f32 := V c main_arg4
abbrev biasA (c : Dev nD) : FVec Ideal S1x128 .f32 := V c main_v23

/-- The blocks the body loads at point t, each at its literal shape. -/
abbrev aggB (c : Dev nD) (t : Fin cfg0.N) : Vec Ideal S5000x96 .f32 := iblk0 V c 0 t
abbrev featB (c : Dev nD) (t : Fin cfg0.N) : Vec Ideal S5000x96 .f32 := iblk0 V c 1 t
abbrev wlB (c : Dev nD) (t : Fin cfg0.N) : Vec Ideal S96x128 .f32 := iblk0 V c 2 t
abbrev biasB (c : Dev nD) (t : Fin cfg0.N) : Vec Ideal S1x128 .f32 := iblk0 V c 3 t
abbrev wrB (c : Dev nD) (t : Fin cfg0.N) : Vec Ideal S96x128 .f32 := iblk0 V c 4 t

/-- A block's entry is the array's entry at the block's embedded index. -/
theorem aggB_apply (c : Dev nD) (t : Fin cfg0.N) (y : S5000x96.Idx) : aggB V c t y = aggA V c (((cfg0.win 0).blk t).view.emb y) := rfl
theorem featB_apply (c : Dev nD) (t : Fin cfg0.N) (y : S5000x96.Idx) : featB V c t y = featA V c (((cfg0.win 1).blk t).view.emb y) := rfl
theorem wlB_apply (c : Dev nD) (t : Fin cfg0.N) (y : S96x128.Idx) : wlB V c t y = wlA V c (((cfg0.win 2).blk t).view.emb y) := rfl
theorem biasB_apply (c : Dev nD) (t : Fin cfg0.N) (y : S1x128.Idx) : biasB V c t y = biasA V c (((cfg0.win 3).blk t).view.emb y) := rfl
theorem wrB_apply (c : Dev nD) (t : Fin cfg0.N) (y : S96x128.Idx) : wrB V c t y = wrA V c (((cfg0.win 4).blk t).view.emb y) := rfl

/-- The hidden features as one array of the region-entry arrays: the rectified layer of the means and the features
    under the two weight matrices and the bias row. -/
def hidden (c : Dev nD) : FVec Ideal S50000x128 .f32 :=
  Cert.Sage.relu (Cert.Sage.lin (R := 50000) (K := 96) (N := 128) (aggA V c) (featA V c) (wlA V c) (wrA V c)
    (fun q => biasA V c (ix2 (0 : Fin 1) q)))

theorem hidden_apply (c : Dev nD) (P : S50000x128.Idx) :
    hidden V c P = max ((∑ k : Fin 96, aggA V c (ix2 (P 0) k) * wlA V c (ix2 k (P 1)) + ∑ k : Fin 96, featA V c (ix2 (P 0) k) * wrA V c (ix2 k (P 1)))
      + biasA V c (ix2 (0 : Fin 1) (P 1))) (Ideal.ofBits .f32 0x00000000#32) := rfl

/-- What point t writes back is block t of `hidden`. -/
theorem flushed_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero zero_offsets]
  simp only [View.ld_unit_zero (S := S5000x96) zero_offsets, View.ld_unit_zero (S := S96x128) zero_offsets,
    View.ld_unit_zero (S := S1x128) zero_offsets]
  obtain ⟨e00, e01, e10, e11, e20, e21, e30, e31, e40, e41, e50, e51⟩ := block_indices t
  funext j
  obtain ⟨J, hJ⟩ : ∃ J : S5000x128.Idx, J = (win0 5).xinj (grid0.coords t) j := ⟨_, rfl⟩
  have hJ0 : (J 0).val = (j 0).val := by rw [hJ]
  have hJ1 : (J 1).val = (j 1).val := by rw [hJ]
  obtain ⟨P, hP⟩ : ∃ P : S50000x128.Idx, P = ((cfg0.win 5).blk t).view.emb j := ⟨_, rfl⟩
  have hP0 : (P 0).val = win0_5.index t (0 : Fin 2) * 5000 + 1 * (j 0).val := by rw [hP]; rfl
  have hP1 : (P 1).val = win0_5.index t (1 : Fin 2) * 128 + 1 * (j 1).val := by rw [hP]; rfl
  show k0_pay1 (F := Ideal) (aggB V c t) (featB V c t) (wlB V c t) (wrB V c t) (biasB V c t) ((win0 5).xinj (grid0.coords t) j)
      = hidden V c (((cfg0.win 5).blk t).view.emb j)
  rw [← hJ, ← hP]
  obtain ⟨p, q, rfl⟩ : ∃ (p : Fin 5000) (q : Fin 128), J = ix2 p q := ⟨J 0, J 1, eq_ix2 J⟩
  have hp : p.val = (j 0).val := hJ0
  have hq : q.val = (j 1).val := hJ1
  have hq' : q.val < 128 := q.isLt
  refine (pay_apply (aggB V c t) (featB V c t) (wlB V c t) (wrB V c t) (biasB V c t) p q).trans ?_
  have r0 : ∀ k : Fin 96, ((cfg0.win 0).blk t).view.emb (ix2 p k) = ix2 (P 0) k := fun k => funext fun a => Fin.ext (by
    match a with
    | ⟨0, _⟩ => show win0_0.index t (0 : Fin 2) * 5000 + 1 * p.val = (P 0).val; omega
    | ⟨1, _⟩ => show win0_0.index t (1 : Fin 2) * 96 + 1 * k.val = k.val; omega)
  have r1 : ∀ k : Fin 96, ((cfg0.win 1).blk t).view.emb (ix2 p k) = ix2 (P 0) k := fun k => funext fun a => Fin.ext (by
    match a with
    | ⟨0, _⟩ => show win0_1.index t (0 : Fin 2) * 5000 + 1 * p.val = (P 0).val; omega
    | ⟨1, _⟩ => show win0_1.index t (1 : Fin 2) * 96 + 1 * k.val = k.val; omega)
  have r2 : ∀ k : Fin 96, ((cfg0.win 2).blk t).view.emb (ix2 k q) = ix2 k (P 1) := fun k => funext fun a => Fin.ext (by
    match a with
    | ⟨0, _⟩ => show win0_2.index t (0 : Fin 2) * 96 + 1 * k.val = k.val; omega
    | ⟨1, _⟩ => show win0_2.index t (1 : Fin 2) * 128 + 1 * q.val = (P 1).val; omega)
  have r4 : ∀ k : Fin 96, ((cfg0.win 4).blk t).view.emb (ix2 k q) = ix2 k (P 1) := fun k => funext fun a => Fin.ext (by
    match a with
    | ⟨0, _⟩ => show win0_4.index t (0 : Fin 2) * 96 + 1 * k.val = k.val; omega
    | ⟨1, _⟩ => show win0_4.index t (1 : Fin 2) * 128 + 1 * q.val = (P 1).val; omega)
  have r3 : ((cfg0.win 3).blk t).view.emb (ix2 (0 : Fin 1) q) = ix2 (0 : Fin 1) (P 1) := funext fun a => Fin.ext (by
    match a with
    | ⟨0, _⟩ => show win0_3.index t (0 : Fin 2) * 1 + 1 * 0 = 0; omega
    | ⟨1, _⟩ => show win0_3.index t (1 : Fin 2) * 128 + 1 * q.val = (P 1).val; omega)
  rw [hidden_apply]
  simp only [aggB_apply, featB_apply, wlB_apply, wrB_apply, biasB_apply, r0, r1, r2, r4, r3]
  rfl

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The ten blocks tile the output: row r lies in the block of point r / 5000. -/
theorem cover (i : S50000x128.Idx) : ∃ t : Fin cfg0.N, (cfg0.win 5).flush t = true ∧ i ∈ ((cfg0.win 5).blk t).view.set := by
  have hi0 : (i 0).val < 50000 := idx2_lt0 i
  have hi1 : (i 1).val < 128 := idx2_lt1 i
  obtain ⟨t, ht⟩ : ∃ t : Fin cfg0.N, t.val = (i 0).val / 5000 := ⟨⟨(i 0).val / 5000, by show (i 0).val / 5000 < 10; omega⟩, rfl⟩
  obtain ⟨e00, e01, e10, e11, e20, e21, e30, e31, e40, e41, e50, e51⟩ := block_indices t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the region the hidden-features array is `hidden` of the region-entry arrays. -/
theorem final (c : Dev nD) : (dat0 V c).arrAt 5 cfg0.N = hidden V c :=
  (dat0 V c).arrAt_eq_of_cover 5 (hidden V c) (fun t _ => flushed_eq V c t) (cover)

end Cert.KernelIdeal.Layer1

end
-- ==== Proof.KernelLayer2.lean ====
/-
  The second layer's region read as a value. The grid has ten points; point t stages rows 5000·t … 5000·t + 4999 of
  the means of the hidden features and of the hidden features, the two 128 × 128 weight matrices and the bias row
  whole, and writes back rows 5000·t … 5000·t + 4999 of the result. What it writes at (p, q) of its block is

      Σ_k A(5000·t + p, k)·Wl(k, q) + Σ_k H(5000·t + p, k)·Wr(k, q) + b(q),

  the entry (5000·t + p, q) of ONE array computed from the whole operands; the ten blocks tile the result, so after
  the region the result array is that array. (No rectifier on this layer.)
-/
import proofs.«132836_j41575283425665_1_alg».proof.Proof.Gen.KernelIdeal.Frame
import proofs.«132836_j41575283425665_1_alg».proof.Proof.LibLinearLayer

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at an entry of the tile, from the five loaded blocks. -/
theorem pay_apply (v0 v3 : Vec Ideal S5000x128 .f32) (v6 v8 : Vec Ideal S128x128 .f32) (v10 : Vec Ideal S1x128 .f32)
    (p : Fin 5000) (q : Fin 128) :
    k1_pay1 (F := Ideal) v0 v3 v6 v8 v10 (ix2 p q)
      = (∑ k : Fin 128, v0 (ix2 p k) * v6 (ix2 k q) + ∑ k : Fin 128, v3 (ix2 p k) * v8 (ix2 k q)) + v10 (ix2 (0 : Fin 1) q) := by
  unfold k1_pay1
  exact Cert.Sage.tile2_apply _ rfl _ _ _ _ v0 v3 v6 v8 v10 p q

/-- The block indices at point t: the row-blocked windows (means, hidden features, result) are at block row t, block
    column 0; the whole-array windows (weights, bias row) at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The region-entry arrays, each at its literal shape. -/
abbrev aggA (c : Dev nD) : FVec Ideal S50000x128 .f32 := V c main_v43
abbrev hidA (c : Dev nD) : FVec Ideal S50000x128 .f32 := V c main_v24
abbrev wlA (c : Dev nD) : FVec Ideal S128x128 .f32 := V c main_arg5
abbrev wrA (c : Dev nD) : FVec Ideal S128x128 .f32 := V c main_arg7
abbrev biasA (c : Dev nD) : FVec Ideal S1x128 .f32 := V c main_v44

/-- The blocks the body loads at point t, each at its literal shape. -/
abbrev aggB (c : Dev nD) (t : Fin cfg1.N) : Vec Ideal S5000x128 .f32 := iblk1 V c 0 t
abbrev hidB (c : Dev nD) (t : Fin cfg1.N) : Vec Ideal S5000x128 .f32 := iblk1 V c 1 t
abbrev wlB (c : Dev nD) (t : Fin cfg1.N) : Vec Ideal S128x128 .f32 := iblk1 V c 2 t
abbrev biasB (c : Dev nD) (t : Fin cfg1.N) : Vec Ideal S1x128 .f32 := iblk1 V c 3 t
abbrev wrB (c : Dev nD) (t : Fin cfg1.N) : Vec Ideal S128x128 .f32 := iblk1 V c 4 t

/-- A block's entry is the array's entry at the block's embedded index. -/
theorem aggB_apply (c : Dev nD) (t : Fin cfg1.N) (y : S5000x128.Idx) : aggB V c t y = aggA V c (((cfg1.win 0).blk t).view.emb y) := rfl
theorem hidB_apply (c : Dev nD) (t : Fin cfg1.N) (y : S5000x128.Idx) : hidB V c t y = hidA V c (((cfg1.win 1).blk t).view.emb y) := rfl
theorem wlB_apply (c : Dev nD) (t : Fin cfg1.N) (y : S128x128.Idx) : wlB V c t y = wlA V c (((cfg1.win 2).blk t).view.emb y) := rfl
theorem biasB_apply (c : Dev nD) (t : Fin cfg1.N) (y : S1x128.Idx) : biasB V c t y = biasA V c (((cfg1.win 3).blk t).view.emb y) := rfl
theorem wrB_apply (c : Dev nD) (t : Fin cfg1.N) (y : S128x128.Idx) : wrB V c t y = wrA V c (((cfg1.win 4).blk t).view.emb y) := rfl

/-- The result as one array of the region-entry arrays: the layer of the means and the hidden features under the two
    weight matrices and the bias row. -/
def result (c : Dev nD) : FVec Ideal S50000x128 .f32 :=
  Cert.Sage.lin (R := 50000) (K := 128) (N := 128) (aggA V c) (hidA V c) (wlA V c) (wrA V c)
    (fun q => biasA V c (ix2 (0 : Fin 1) q))

theorem result_apply (c : Dev nD) (P : S50000x128.Idx) :
    result V c P = (∑ k : Fin 128, aggA V c (ix2 (P 0) k) * wlA V c (ix2 k (P 1)) + ∑ k : Fin 128, hidA V c (ix2 (P 0) k) * wrA V c (ix2 k (P 1)))
      + biasA V c (ix2 (0 : Fin 1) (P 1)) := rfl

/-- What point t writes back is block t of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51⟩ := block_indices t
  funext j
  obtain ⟨J, hJ⟩ : ∃ J : S5000x128.Idx, J = (win1 5).xinj (grid1.coords t) j := ⟨_, rfl⟩
  have hJ0 : (J 0).val = (j 0).val := by rw [hJ]
  have hJ1 : (J 1).val = (j 1).val := by rw [hJ]
  obtain ⟨P, hP⟩ : ∃ P : S50000x128.Idx, P = ((cfg1.win 5).blk t).view.emb j := ⟨_, rfl⟩
  have hP0 : (P 0).val = win1_5.index t (0 : Fin 2) * 5000 + 1 * (j 0).val := by rw [hP]; rfl
  have hP1 : (P 1).val = win1_5.index t (1 : Fin 2) * 128 + 1 * (j 1).val := by rw [hP]; rfl
  show k1_pay1 (F := Ideal) (aggB V c t) (hidB V c t) (wlB V c t) (wrB V c t) (biasB V c t) ((win1 5).xinj (grid1.coords t) j)
      = result V c (((cfg1.win 5).blk t).view.emb j)
  rw [← hJ, ← hP]
  obtain ⟨p, q, rfl⟩ : ∃ (p : Fin 5000) (q : Fin 128), J = ix2 p q := ⟨J 0, J 1, eq_ix2 J⟩
  have hp : p.val = (j 0).val := hJ0
  have hq : q.val = (j 1).val := hJ1
  have hq' : q.val < 128 := q.isLt
  refine (pay_apply (aggB V c t) (hidB V c t) (wlB V c t) (wrB V c t) (biasB V c t) p q).trans ?_
  have r0 : ∀ k : Fin 128, ((cfg1.win 0).blk t).view.emb (ix2 p k) = ix2 (P 0) k := fun k => funext fun a => Fin.ext (by
    match a with
    | ⟨0, _⟩ => show win1_0.index t (0 : Fin 2) * 5000 + 1 * p.val = (P 0).val; omega
    | ⟨1, _⟩ => show win1_0.index t (1 : Fin 2) * 128 + 1 * k.val = k.val; omega)
  have r1 : ∀ k : Fin 128, ((cfg1.win 1).blk t).view.emb (ix2 p k) = ix2 (P 0) k := fun k => funext fun a => Fin.ext (by
    match a with
    | ⟨0, _⟩ => show win1_1.index t (0 : Fin 2) * 5000 + 1 * p.val = (P 0).val; omega
    | ⟨1, _⟩ => show win1_1.index t (1 : Fin 2) * 128 + 1 * k.val = k.val; omega)
  have r2 : ∀ k : Fin 128, ((cfg1.win 2).blk t).view.emb (ix2 k q) = ix2 k (P 1) := fun k => funext fun a => Fin.ext (by
    match a with
    | ⟨0, _⟩ => show win1_2.index t (0 : Fin 2) * 128 + 1 * k.val = k.val; omega
    | ⟨1, _⟩ => show win1_2.index t (1 : Fin 2) * 128 + 1 * q.val = (P 1).val; omega)
  have r4 : ∀ k : Fin 128, ((cfg1.win 4).blk t).view.emb (ix2 k q) = ix2 k (P 1) := fun k => funext fun a => Fin.ext (by
    match a with
    | ⟨0, _⟩ => show win1_4.index t (0 : Fin 2) * 128 + 1 * k.val = k.val; omega
    | ⟨1, _⟩ => show win1_4.index t (1 : Fin 2) * 128 + 1 * q.val = (P 1).val; omega)
  have r3 : ((cfg1.win 3).blk t).view.emb (ix2 (0 : Fin 1) q) = ix2 (0 : Fin 1) (P 1) := funext fun a => Fin.ext (by
    match a with
    | ⟨0, _⟩ => show win1_3.index t (0 : Fin 2) * 1 + 1 * 0 = 0; omega
    | ⟨1, _⟩ => show win1_3.index t (1 : Fin 2) * 128 + 1 * q.val = (P 1).val; omega)
  rw [result_apply]
  simp only [aggB_apply, hidB_apply, wlB_apply, wrB_apply, biasB_apply, r0, r1, r2, r4, r3]
  rfl

/-- An index of the result array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- The ten blocks tile the result: row r lies in the block of point r / 5000. -/
theorem cover (i : S50000x128.Idx) : ∃ t : Fin cfg1.N, (cfg1.win 5).flush t = true ∧ i ∈ ((cfg1.win 5).blk t).view.set := by
  have hi0 : (i 0).val < 50000 := idx2_lt0 i
  have hi1 : (i 1).val < 128 := idx2_lt1 i
  obtain ⟨t, ht⟩ : ∃ t : Fin cfg1.N, t.val = (i 0).val / 5000 := ⟨⟨(i 0).val / 5000, by show (i 0).val / 5000 < 10; omega⟩, rfl⟩
  obtain ⟨e00, e01, e10, e11, e20, e21, e30, e31, e40, e41, e50, e51⟩ := block_indices t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- After the region the result array is `result` of the region-entry arrays. -/
theorem final (c : Dev nD) : (dat1 V c).arrAt 5 cfg1.N = result V c :=
  (dat1 V c).arrAt_eq_of_cover 5 (result V c) (fun t _ => flushed_eq V c t) (cover)

end Cert.KernelIdeal.Layer2

end
-- ==== Proof.RefSpec.lean ====
/-
  The two functions both programs compute, named over the reference's own stages. `hidden` is the rectified first
  layer of the neighbourhood means of the input features and the features; `out` the second layer of the means of the
  hidden features and the hidden features. The aggregation (gather the source rows, add them into the destination
  rows, divide by the in-degree, at least one) is the host's chain of operations, carried as one function.
-/
import proofs.«132836_j41575283425665_1_alg».proof.Proof.Gen.ReferenceIdeal.Read
import proofs.«132836_j41575283425665_1_alg».proof.Proof.LibLinearLayer

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx Idealize.SL.Sem

variable (x0 : (⟨S50000x96, .f32⟩ : BufTy).Contents (Elt Ideal)) (x1 : (⟨S2x800000, .i32⟩ : BufTy).Contents (Elt Ideal))
  (x2 : (⟨S96x128, .f32⟩ : BufTy).Contents (Elt Ideal)) (x3 : (⟨S128, .f32⟩ : BufTy).Contents (Elt Ideal))
  (x4 : (⟨S96x128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))

/-- The neighbourhood means of a [50000, 128] feature array over the edge list `x1`: gather the source rows, add them
    into the destination rows, divide by the in-degree (at least one). One function of the features. -/
def agg128 (h : FVec Ideal S50000x128 .f32) : FVec Ideal S50000x128 .f32 :=
  Host.divf (F := Ideal)
    (Host.scatterAdd (F := Ideal) scatter_S50000x128_S800000x1_S800000x128_1_0_0_1 (val_main_v37 (F := Ideal)) (val_main_v38 (F := Ideal) x1)
      (Host.gather gather_S50000x128_S800000x1_S800000x128_1_0_n_n_0_1_1128 h (val_main_v35 (F := Ideal) x1)))
    (val_main_v47 (F := Ideal) x1)

/-- The hidden features: the rectified first layer of the means of `x0` and `x0` itself. -/
def hidden : FVec Ideal S50000x128 .f32 :=
  Cert.Sage.relu (Cert.Sage.lin (R := 50000) (K := 96) (N := 128) (val_main_v22 (F := Ideal) x0 x1) x0 x2 x4 (fun q => x3 (ix1 q)))

/-- The result: the second layer of the means of the hidden features and the hidden features. -/
def out : FVec Ideal S50000x128 .f32 :=
  Cert.Sage.lin (R := 50000) (K := 128) (N := 128) (agg128 x1 (hidden x0 x1 x2 x3 x4)) (hidden x0 x1 x2 x3 x4) x5 x7 (fun q => x6 (ix1 q))

end Cert.ReferenceIdeal.Layers

end
-- ==== Proof.KernelValue.lean ====
/-
  The kernel program's result as a value. The run passes four boundaries: the first host stretch computes the
  neighbourhood means of the input features; the first region leaves the hidden features; the second host stretch
  computes the means of the hidden features (over the same edge list, whose source and destination vectors the first
  stretch made); the second region leaves the result. Read back through the boundaries, the result array is the
  second layer of the means of the hidden features and the hidden features, the hidden features the rectified first
  layer of the means of the inputs and the inputs — the same two functions the reference is, the host's aggregation
  chain carried as one function and never opened.
-/
import proofs.«132836_j41575283425665_1_alg».proof.Proof.Gen.KernelIdeal.Frame
import proofs.«132836_j41575283425665_1_alg».proof.Proof.KernelLayer1
import proofs.«132836_j41575283425665_1_alg».proof.Proof.KernelLayer2
import proofs.«132836_j41575283425665_1_alg».proof.Proof.RefSpec
import Idealize.ShloMosaic.Lib.ValueLayout

set_option maxRecDepth 16384

noncomputable section

namespace Cert.KernelIdeal.HostValues

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the first host stretch -/

theorem W1_arg0 (c : Dev nD) : W1 m ρ c (Proc.devRef .tc main_arg0) = m ((c.tc : Thread nD τ).loc main_arg0) := by
  dsimp only [W1, hostOps0]; after_results_simp <;> rfl
theorem W1_arg2 (c : Dev nD) : W1 m ρ c (Proc.devRef .tc main_arg2) = m ((c.tc : Thread nD τ).loc main_arg2) := by
  dsimp only [W1, hostOps0]; after_results_simp <;> rfl
theorem W1_arg4 (c : Dev nD) : W1 m ρ c (Proc.devRef .tc main_arg4) = m ((c.tc : Thread nD τ).loc main_arg4) := by
  dsimp only [W1, hostOps0]; after_results_simp <;> rfl
theorem W1_arg5 (c : Dev nD) : W1 m ρ c (Proc.devRef .tc main_arg5) = m ((c.tc : Thread nD τ).loc main_arg5) := by
  dsimp only [W1, hostOps0]; after_results_simp <;> rfl
theorem W1_arg6 (c : Dev nD) : W1 m ρ c (Proc.devRef .tc main_arg6) = m ((c.tc : Thread nD τ).loc main_arg6) := by
  dsimp only [W1, hostOps0]; after_results_simp <;> rfl
theorem W1_arg7 (c : Dev nD) : W1 m ρ c (Proc.devRef .tc main_arg7) = m ((c.tc : Thread nD τ).loc main_arg7) := by
  dsimp only [W1, hostOps0]; after_results_simp <;> rfl

/-- The edge list's source vector. -/
theorem W1_v1 (c : Dev nD) : W1 m ρ c (Proc.devRef .tc main_v1)
    = Cert.ReferenceIdeal.Read.val_main_v1 (F := Ideal) (m ((c.tc : Thread nD τ).loc main_arg1)) := by
  dsimp only [W1, hostOps0]; after_results_simp <;> rfl
/-- The edge list's destination vector. -/
theorem W1_v3 (c : Dev nD) : W1 m ρ c (Proc.devRef .tc main_v3)
    = Cert.ReferenceIdeal.Read.val_main_v3 (F := Ideal) (m ((c.tc : Thread nD τ).loc main_arg1)) := by
  dsimp only [W1, hostOps0]; after_results_simp <;> rfl
set_option maxHeartbeats 8000000 in
/-- The neighbourhood means of the input features: the reference's own chain of the same arguments. -/
theorem W1_v22 (c : Dev nD) : W1 m ρ c (Proc.devRef .tc main_v22)
    = Cert.ReferenceIdeal.Read.val_main_v22 (F := Ideal) (m ((c.tc : Thread nD τ).loc main_arg0)) (m ((c.tc : Thread nD τ).loc main_arg1)) := by
  dsimp only [W1, hostOps0]; after_results_simp <;> rfl
/-- The first bias as a one-row array. -/
theorem W1_v23 (c : Dev nD) : W1 m ρ c (Proc.devRef .tc main_v23)
    = shapeCast S1x128 (m ((c.tc : Thread nD τ).loc main_arg3)) shapeCasts_S128_S1x128 := by
  dsimp only [W1, hostOps0]; after_results_simp <;> rfl

/-! ## After the first region: only its own arrays can have changed -/

theorem W2_v1 (c : Dev nD) : W2 m ρ c (Proc.devRef .tc main_v1)
    = Cert.ReferenceIdeal.Read.val_main_v1 (F := Ideal) (m ((c.tc : Thread nD τ).loc main_arg1)) :=
  (W2_of_ne m ρ c main_v1 (by decide)).trans (W1_v1 m ρ c)
theorem W2_v3 (c : Dev nD) : W2 m ρ c (Proc.devRef .tc main_v3)
    = Cert.ReferenceIdeal.Read.val_main_v3 (F := Ideal) (m ((c.tc : Thread nD τ).loc main_arg1)) :=
  (W2_of_ne m ρ c main_v3 (by decide)).trans (W1_v3 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)

/-! ## After the second host stretch -/

theorem W3_v24 (c : Dev nD) : W3 m ρ c (Proc.devRef .tc main_v24) = W2 m ρ c (Proc.devRef .tc main_v24) := by
  dsimp only [W3, hostOps1]; after_results_simp <;> rfl
theorem W3_arg5 (c : Dev nD) : W3 m ρ c (Proc.devRef .tc main_arg5) = m ((c.tc : Thread nD τ).loc main_arg5) := by
  dsimp only [W3, hostOps1]; after_results_simp <;> exact W2_arg5 m ρ c
theorem W3_arg7 (c : Dev nD) : W3 m ρ c (Proc.devRef .tc main_arg7) = m ((c.tc : Thread nD τ).loc main_arg7) := by
  dsimp only [W3, hostOps1]; after_results_simp <;> exact W2_arg7 m ρ c
/-- The second bias as a one-row array. -/
theorem W3_v44 (c : Dev nD) : W3 m ρ c (Proc.devRef .tc main_v44)
    = shapeCast S1x128 (m ((c.tc : Thread nD τ).loc main_arg6)) shapeCasts_S128_S1x128 := by
  dsimp only [W3, hostOps1]; after_results_simp; rw [W2_arg6]; rfl
set_option maxHeartbeats 8000000 in
/-- The neighbourhood means of whatever the first region left as hidden features. -/
theorem W3_v43 (c : Dev nD) : W3 m ρ c (Proc.devRef .tc main_v43)
    = Cert.ReferenceIdeal.Layers.agg128 (m ((c.tc : Thread nD τ).loc main_arg1)) (W2 m ρ c (Proc.devRef .tc main_v24)) := by
  dsimp only [W3, hostOps1]; after_results_simp; rw [W2_v1, W2_v3]; rfl

end Cert.KernelIdeal.HostValues

namespace Cert.KernelIdeal.Value

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- What the first region leaves as hidden features is the reference's `hidden` of the launch arguments. -/
theorem hidden_eq (c : Dev nD) :
    Layer1.hidden (V1 m ρ) c
      = Cert.ReferenceIdeal.Layers.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e0 : Layer1.aggA (V1 m ρ) c = Cert.ReferenceIdeal.Read.val_main_v22 (F := Ideal) (m ((c.tc : Thread nD τ).loc main_arg0)) (m ((c.tc : Thread nD τ).loc main_arg1)) :=
    HostValues.W1_v22 m ρ c
  have e1 : Layer1.featA (V1 m ρ) c = (m ((c.tc : Thread nD τ).loc main_arg0)) := HostValues.W1_arg0 m ρ c
  have e2 : Layer1.wlA (V1 m ρ) c = (m ((c.tc : Thread nD τ).loc main_arg2)) := HostValues.W1_arg2 m ρ c
  have e4 : Layer1.wrA (V1 m ρ) c = (m ((c.tc : Thread nD τ).loc main_arg4)) := HostValues.W1_arg4 m ρ c
  have e3 : (fun q : Fin 128 => Layer1.biasA (V1 m ρ) c (ix2 (0 : Fin 1) q)) = fun q => (m ((c.tc : Thread nD τ).loc main_arg3)) (ix1 q) :=
    funext fun q => by
      rw [show Layer1.biasA (V1 m ρ) c = shapeCast S1x128 (m ((c.tc : Thread nD τ).loc main_arg3)) shapeCasts_S128_S1x128 from HostValues.W1_v23 m ρ c]
      exact shapeCast_a_1a_apply _ _ 0 q
  unfold Layer1.hidden Cert.ReferenceIdeal.Layers.hidden
  rw [e0, e1, e2, e4, e3]

/-- The hidden-features array when the second region is entered. -/
theorem hid_entry (c : Dev nD) :
    W2 m ρ c (Proc.devRef .tc main_v24)
      = Cert.ReferenceIdeal.Layers.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 5).trans ((Layer1.final (V1 m ρ) c).trans (hidden_eq m ρ c))

/-- THE RESULT ARRAY after the run is the reference's `out` of the launch arguments. -/
theorem result_eq (c : Dev nD) :
    (dat1 (V3 m ρ) c).arrAt 5 cfg1.N
      = Cert.ReferenceIdeal.Layers.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have eH : Layer2.hidA (V3 m ρ) c
      = Cert.ReferenceIdeal.Layers.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
    (HostValues.W3_v24 m ρ c).trans (hid_entry m ρ c)
  have eA : Layer2.aggA (V3 m ρ) c
      = Cert.ReferenceIdeal.Layers.agg128 (m ((c.tc : Thread nD τ).loc main_arg1))
          (Cert.ReferenceIdeal.Layers.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
    (HostValues.W3_v43 m ρ c).trans (congrArg (Cert.ReferenceIdeal.Layers.agg128 (m ((c.tc : Thread nD τ).loc main_arg1))) (hid_entry m ρ c))
  have eWl : Layer2.wlA (V3 m ρ) c = (m ((c.tc : Thread nD τ).loc main_arg5)) := HostValues.W3_arg5 m ρ c
  have eWr : Layer2.wrA (V3 m ρ) c = (m ((c.tc : Thread nD τ).loc main_arg7)) := HostValues.W3_arg7 m ρ c
  have eB : (fun q : Fin 128 => Layer2.biasA (V3 m ρ) c (ix2 (0 : Fin 1) q)) = fun q => (m ((c.tc : Thread nD τ).loc main_arg6)) (ix1 q) :=
    funext fun q => by
      rw [show Layer2.biasA (V3 m ρ) c = shapeCast S1x128 (m ((c.tc : Thread nD τ).loc main_arg6)) shapeCasts_S128_S1x128 from HostValues.W3_v44 m ρ c]
      exact shapeCast_a_1a_apply _ _ 0 q
  rw [Layer2.final (V3 m ρ) c]
  unfold Layer2.result Cert.ReferenceIdeal.Layers.out
  rw [eA, eH, eWl, eWr, eB]

end Cert.KernelIdeal.Value

end
-- ==== Proof.RefLayers.lean ====
/-
  The reference read as two layers. Its first 29 operations compute the neighbourhood means of the input features;
  the next six the first layer in the host's order — first product, bias, second product — and the rectifier; then
  the same aggregation of the hidden features, and the second layer without a rectifier. Each layer in the host's
  order is the layer with the bias added last (the bias commutes past the second product), so the reference's result
  is `out` of its arguments.
-/
import proofs.«132836_j41575283425665_1_alg».proof.Proof.RefSpec

noncomputable section

namespace Cert.ReferenceIdeal.Layers

open Cert.ReferenceIdeal Cert.ReferenceIdeal.Gen Cert.ReferenceIdeal.Read
open Idealize.ShloMosaic Idealize.ShloMosaic.TcCoe Idealize.ShloMosaic.ValueIdx Idealize.SL.Sem

variable (x0 : (⟨S50000x96, .f32⟩ : BufTy).Contents (Elt Ideal)) (x1 : (⟨S2x800000, .i32⟩ : BufTy).Contents (Elt Ideal))
  (x2 : (⟨S96x128, .f32⟩ : BufTy).Contents (Elt Ideal)) (x3 : (⟨S128, .f32⟩ : BufTy).Contents (Elt Ideal))
  (x4 : (⟨S96x128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))

/-- The first bias spread over the rows reads the bias at the column. -/
theorem bias1_apply (p : Fin 50000) (q : Fin 128) : val_main_v25 (F := Ideal) x3 (ix2 p q) = x3 (ix1 q) := by
  rw [val_main_v25_apply, val_main_v24_apply]
  exact congrArg x3 (funext fun a => Fin.ext (by match a with | ⟨0, _⟩ => rfl))

/-- The second bias spread over the rows reads the bias at the column. -/
theorem bias2_apply (p : Fin 50000) (q : Fin 128) : val_main_v51 (F := Ideal) x6 (ix2 p q) = x6 (ix1 q) := by
  rw [val_main_v51_apply, val_main_v50_apply]
  exact congrArg x6 (funext fun a => Fin.ext (by match a with | ⟨0, _⟩ => rfl))

/-- The rectifier's splat of the zero word reads the zero word's value. -/
theorem zeros_apply (i : S50000x128.Idx) : val_main_call0_v0 (F := Ideal) i = Ideal.ofBits .f32 0x00000000#32 := by
  rw [val_main_call0_v0_apply, val_main_call0_cst_apply]; rfl

/-- The first layer before the rectifier, in the host's order, is the layer's linear part. -/
theorem v28_eq : val_main_v28 (F := Ideal) x0 x1 x2 x3 x4
    = Cert.Sage.lin (R := 50000) (K := 96) (N := 128) (val_main_v22 (F := Ideal) x0 x1) x0 x2 x4 (fun q => x3 (ix1 q)) := by
  unfold val_main_v28 val_main_v26 val_main_v23 val_main_v27
  exact Cert.Sage.host_eq_lin dot_S50000x96_S96x128_S50000x128_1_0_0_1_n_n rfl (val_main_v22 (F := Ideal) x0 x1) x0 x2 x4
    (fun q => x3 (ix1 q)) (val_main_v25 (F := Ideal) x3) (bias1_apply x3)

/-- The reference's hidden features are `hidden`. -/
theorem v29_eq : val_main_v29 (F := Ideal) x0 x1 x2 x3 x4 = hidden x0 x1 x2 x3 x4 := by
  unfold val_main_v29 hidden
  rw [v28_eq]
  funext i
  rw [maximumf_apply, Cert.Sage.relu_apply, zeros_apply]

/-- The means the second layer takes are `agg128` of the hidden features. -/
theorem v48_eq : val_main_v48 (F := Ideal) x0 x1 x2 x3 x4 = agg128 x1 (val_main_v29 (F := Ideal) x0 x1 x2 x3 x4) := by
  unfold val_main_v48 val_main_v39 val_main_v36 agg128
  rfl

/-- The reference's result is `out`. -/
theorem v54_eq : val_main_v54 (F := Ideal) x0 x1 x2 x3 x4 x5 x6 x7 = out x0 x1 x2 x3 x4 x5 x6 x7 := by
  unfold val_main_v54 val_main_v52 val_main_v49 val_main_v53 out
  rw [v48_eq, v29_eq]
  exact Cert.Sage.host_eq_lin dot_S50000x128_S128x128_S50000x128_1_0_0_1_n_n rfl (agg128 x1 (hidden x0 x1 x2 x3 x4)) (hidden x0 x1 x2 x3 x4) x5 x7
    (fun q => x6 (ix1 q)) (val_main_v51 (F := Ideal) x6) (bias2_apply x6)

end Cert.ReferenceIdeal.Layers

end
-- ==== Proof.lean ====
/-
  A two-layer graph convolution (mean aggregation over an edge list, then a linear layer on the aggregated and the
  node's own features; a rectifier after the first layer) against its plain reference, over the extended reals.

  Both programs aggregate on the host with the same chain of operations: gather the source rows, add them into the
  destination rows, divide by the in-degree (at least one). The kernel program runs each linear layer as a tiled
  region — ten row blocks of 5000, each computing  A·Wl + X·Wr + b  with both products into zero accumulators and the
  bias added last —, the reference as host products in the order  (A·Wl + b) + X·Wr.  On the extended reals addition
  is commutative and associative, so each layer is the same array whatever its entries; the rectifier is the same
  maximum with the zero word's value on both sides; narrowing an operand to bf16 is the identity. Hence the hidden
  features agree, the same aggregation applied to them agrees, and the results agree entry by entry. Finiteness of
  the inputs is never used.

  Modules: LibLinearLayer (one layer as a function, the tile's and the host's forms), RefSpec / RefLayers (the
  reference's stages as the two layers), KernelLayer1 / KernelLayer2 (each region's output array as one function of its entry
  arrays: the blocks tile it), KernelRun (the run with the result array named), KernelValue (the host stretches read
  back and the regions chained).
-/
import proofs.«132836_j41575283425665_1_alg».proof.Defs
import proofs.«132836_j41575283425665_1_alg».proof.Proof.Gen.Kernel
import proofs.«132836_j41575283425665_1_alg».proof.Proof.Gen.Kernel.Frame
import proofs.«132836_j41575283425665_1_alg».proof.Proof.Gen.KernelIdeal
import proofs.«132836_j41575283425665_1_alg».proof.Proof.Gen.KernelIdeal.Frame
import proofs.«132836_j41575283425665_1_alg».proof.Proof.Gen.ReferenceIdeal
import proofs.«132836_j41575283425665_1_alg».proof.Proof.Gen.Pre_finite_inputs
import proofs.«132836_j41575283425665_1_alg».proof.Proof.Gen.ReferenceIdeal.Run
import proofs.«132836_j41575283425665_1_alg».proof.Proof.Gen.ReferenceIdeal.Read
import proofs.«132836_j41575283425665_1_alg».proof.Proof.KernelRun
import proofs.«132836_j41575283425665_1_alg».proof.Proof.KernelValue
import proofs.«132836_j41575283425665_1_alg».proof.Proof.RefLayers
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `out` of the (agreeing) arguments. -/
theorem algebraic : Cert.algebraic_KernelIdeal_ReferenceIdeal := by
  intro m ρ m' ρ' _ hagree
  refine ⟨fun c => Cert.ReferenceIdeal.Layers.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.result_eq m ρ c), (h c).2⟩)
      (Cert.KernelIdeal.RunValue.run_main m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v54_eq, Cert.ReferenceIdeal.Layers.v54_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
